-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  main_v43

def fn_part1 {F : FTy → Type} [FloatOps F] (main_arg4 : FVec F S2048 .f32) (main_arg5 : FVec F S2048x2048 .f32) (main_arg6 : FVec F S2048x2048 .f32) (main_arg7 : FVec F S2048 .f32) (main_arg8 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_v33

def fn {F : FTy → Type} [FloatOps F] (main_arg0 : FVec F S4096x2048 .f32) (main_arg1 : FVec F S4096x2048 .f32) (main_arg2 : FVec F S2048x2048 .f32) (main_arg3 : FVec F S2048x2048 .f32) (main_arg4 : FVec F S2048 .f32) (main_arg5 : FVec F S2048x2048 .f32) (main_arg6 : FVec F S2048x2048 .f32) (main_arg7 : FVec F S2048 .f32) (main_arg8 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S2048x256 : Shape := ⟨2, ![2048, 256]⟩
abbrev S1x256 : Shape := ⟨2, ![1, 256]⟩
abbrev S512x256 : Shape := ⟨2, ![512, 256]⟩

abbrev nBuf : Space → Nat
  | .hbm => 12
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S1x2048, .f32⟩
  | .hbm, ⟨10, _⟩ => ⟨S1x2048, .f32⟩
  | .hbm, ⟨11, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S1x256, .f32⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | .local _ .vmem, ⟨18, _⟩ => ⟨S512x256, .f32⟩
  | .local _ .vmem, ⟨19, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let c0_21 : Index := 0#32
  let arg1 : BitVec 32 := BitVec.ofNat 32 (i 1).val
  let c256_i32 : BitVec 32 := 256#32
  let v0 : BitVec 32 := Scalar.muli arg1 c256_i32
  let v1 : BitVec 32 := v0
  let v33 : Index := Scalar.indexCast v1
  ![0, v33.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  h_S512x256 : 0 < S512x256.numel
  inb_S512x256_S512x256_0_0 : ∀ a, (![0, 0] : Fin 2 → Nat) a + S512x256.size a ≤ S512x256.size a
  dot_S512x2048_S2048x256_S512x256_1_0_0_1_n_n_wf : DotDims.WF S512x2048 S2048x256 S512x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S512x256.size a ≤ S512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .f32 = 32 ∨ (Rect.block (s := S2048x2048) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .f32 = 32 ∨ (Rect.block (s := S2048x2048) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .f32 = 32 ∨ (Rect.block (s := S2048x2048) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .f32 = 32 ∨ (Rect.block (s := S2048x2048) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .f32 = 32 ∨ (Rect.block (s := S2048x2048) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S4096x2048.size a
  hwx0_9 : ∀ i : grid0.Coords, EltTy.bits .f32 = 32 ∨ (Rect.block (s := S4096x2048) S512x256.size (cc0_transform_9 i) (hinb0_9 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2) S512x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.Block.lean ====
/-
  What the kernel body leaves in its output block, entry by entry.

  At one grid point the body holds a [512, 2048] block of input rows, a [512, 2048] block of state rows, five
  [2048, 256] blocks of weight columns and two [1, 256] blocks of bias entries. It stores ONE [512, 256] block: at
  (p, q) the forget gate σ(⟨s_p, uθ_q⟩ + ⟨x_p, wθ_q⟩ + bθ_q) times tanh of the state block's entry in column
  (column offset + q), plus the input gate σ(⟨s_p, uη_q⟩ + ⟨x_p, wη_q⟩ + bη_q) times tanh ⟨x_p, wx_q⟩. The narrowing
  of the operands to bf16 is the identity on the extended reals; a product into a zero accumulator is the plain sum
  over the contracted index; a [1, 256] row repeated over 512 rows reads its entry (0, q).
-/
import proofs.«114940_j61692910239821_1_alg».proof.Proof.Gen.KernelIdeal.Frame
import proofs.«114940_j61692910239821_1_alg».proof.Proof.LibDense
import proofs.«114940_j61692910239821_1_alg».proof.Proof.LibBiasRow

set_option maxRecDepth 16384

noncomputable section

open scoped BigOperators

namespace Cert.KernelIdeal.Block

open Cert.KernelIdeal Cert.KernelIdeal.Gen Idealize.ShloMosaic Idealize.ShloMosaic.TcCoe Idealize.ShloMosaic.Tactic
open Idealize.ShloMosaic.ValueIdx Idealize.SL.Sem

theorem zero_offsets : (![0, 0] : Fin 2 → Nat) = fun _ => 0 := funext fun a => by fin_cases a <;> rfl

section staged

variable {F : FTy → Type} [FloatOps F]

/-- The state block's columns the body reads for its tanh factor: the [512, 256] rectangle of the [512, 2048] block
    at the point's column offset. -/
abbrev stateCols (i : grid0.Coords) : Rect S512x2048 :=
  Rect.unit (s := S512x2048) (k0_off1 i) S512x256.size (k0_off1_inb i)

/-- The body's one store covers the output's staging buffer, so what the buffer holds afterwards is the stored value:
    the body's arithmetic of its loaded blocks. -/
theorem staged_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S1x256 .f32) (harg9 : arg9.IsWhole) (arg10 : Memref sig .tc .vmem S2048x256 .f32) (harg10 : arg10.IsWhole) (arg11 : Memref sig .tc .vmem S512x256 .f32) (harg11 : arg11.IsWhole)
    (x0 : Vec F S512x2048 .f32) (x1 : Vec F S512x2048 .f32) (x2 : Vec F S2048x256 .f32) (x3 : Vec F S2048x256 .f32) (x4 : Vec F S1x256 .f32) (x5 : Vec F S2048x256 .f32) (x6 : Vec F S2048x256 .f32) (x7 : Vec F S1x256 .f32) (x8 : Vec F S2048x256 .f32) :
    out0_A_9 c i arg2 harg2 arg3 harg3 arg4 harg4 arg5 harg5 arg6 harg6 arg7 harg7 arg8 harg8 arg9 harg9 arg10 harg10 arg11 harg11 x0 x1 x2 x3 x4 x5 x6 x7 x8
      = k0_pay1 (k0_pay4 x0 x8) (k0_pay5 x0 x1 x2 x3 x4) (k0_pay6 x0 x1 x5 x6 x7) (View.ld x1 (stateCols i)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero zero_offsets]
  simp only [View.readAt_eq_ld, harg2.read_unread, harg3.read_unread, harg4.read_unread, harg5.read_unread,
    harg6.read_unread, harg7.read_unread, harg8.read_unread, harg9.read_unread, harg10.read_unread,
    View.ld_unit_zero (S := S512x2048) zero_offsets, View.ld_unit_zero (S := S2048x256) zero_offsets,
    View.ld_unit_zero (S := S1x256) zero_offsets]
  rfl

end staged

/-! ## The stored value at an entry, on the extended reals -/

/-- A gate of the block at (p, q). -/
def gateArg (xs xi : FVec Ideal S512x2048 .f32) (u w : FVec Ideal S2048x256 .f32) (b : FVec Ideal S1x256 .f32)
    (p : Fin 512) (q : Fin 256) : EReal :=
  (∑ k : Fin 2048, xs (ix2 p k) * u (ix2 k q)) + (∑ k : Fin 2048, xi (ix2 p k) * w (ix2 k q)) + b (ix2 (0 : Fin 1) q)

/-- The forget gate's value: the logistic function of its argument. -/
theorem forget_apply (x0 x1 : FVec Ideal S512x2048 .f32) (x2 x3 : FVec Ideal S2048x256 .f32) (x4 : FVec Ideal S1x256 .f32)
    (p : Fin 512) (q : Fin 256) :
    k0_pay5 (F := Ideal) x0 x1 x2 x3 x4 (ix2 p q) = Ideal.logistic (gateArg x1 x0 x2 x3 x4 p q) := by
  unfold k0_pay5 k0_pay2 k0_pay3
  refine congrArg Ideal.logistic ?_
  rw [addf_apply, addf_apply, Cert.Dense.matmul_zero_plain_apply _ rfl rfl rfl rfl rfl rfl,
    Cert.Dense.matmul_zero_plain_apply _ rfl rfl rfl rfl rfl rfl, Cert.BiasRow.stretch_row_apply, shapeCast_self]
  rfl

/-- The input gate's value. -/
theorem input_apply (x0 x1 : FVec Ideal S512x2048 .f32) (x5 x6 : FVec Ideal S2048x256 .f32) (x7 : FVec Ideal S1x256 .f32)
    (p : Fin 512) (q : Fin 256) :
    k0_pay6 (F := Ideal) x0 x1 x5 x6 x7 (ix2 p q) = Ideal.logistic (gateArg x1 x0 x5 x6 x7 p q) := by
  unfold k0_pay6 k0_pay2 k0_pay3
  refine congrArg Ideal.logistic ?_
  rw [addf_apply, addf_apply, Cert.Dense.matmul_zero_plain_apply _ rfl rfl rfl rfl rfl rfl,
    Cert.Dense.matmul_zero_plain_apply _ rfl rfl rfl rfl rfl rfl, Cert.BiasRow.stretch_row_apply, shapeCast_self]
  rfl

/-- The projected input: the input row against the column of the projection block. -/
theorem proj_apply (x0 : FVec Ideal S512x2048 .f32) (x8 : FVec Ideal S2048x256 .f32) (p : Fin 512) (q : Fin 256) :
    k0_pay4 (F := Ideal) x0 x8 (ix2 p q) = ∑ k : Fin 2048, x0 (ix2 p k) * x8 (ix2 k q) := by
  unfold k0_pay4 k0_pay2
  rw [Cert.Dense.matmul_zero_plain_apply _ rfl rfl rfl rfl rfl rfl]
  rfl

/-- The stored value at (p, q). -/
theorem stored_apply (x0 x1 : FVec Ideal S512x2048 .f32) (x2 x3 : FVec Ideal S2048x256 .f32) (x4 : FVec Ideal S1x256 .f32)
    (x5 x6 : FVec Ideal S2048x256 .f32) (x7 : FVec Ideal S1x256 .f32) (x8 : FVec Ideal S2048x256 .f32)
    (sc : FVec Ideal S512x256 .f32) (p : Fin 512) (q : Fin 256) :
    k0_pay1 (F := Ideal) (k0_pay4 x0 x8) (k0_pay5 x0 x1 x2 x3 x4) (k0_pay6 x0 x1 x5 x6 x7) sc (ix2 p q)
      = Ideal.logistic (gateArg x1 x0 x2 x3 x4 p q) * Ideal.tanh (sc (ix2 p q))
        + Ideal.logistic (gateArg x1 x0 x5 x6 x7 p q) * Ideal.tanh (∑ k : Fin 2048, x0 (ix2 p k) * x8 (ix2 k q)) := by
  unfold k0_pay1
  show k0_pay5 (F := Ideal) x0 x1 x2 x3 x4 (ix2 p q) * Ideal.tanh (sc (ix2 p q))
      + k0_pay6 (F := Ideal) x0 x1 x5 x6 x7 (ix2 p q) * Ideal.tanh (k0_pay4 (F := Ideal) x0 x8 (ix2 p q)) = _
  rw [forget_apply, input_apply, proj_apply]

end Cert.KernelIdeal.Block

end
-- ==== Proof.Cell.lean ====
/-
  The gated cell as one function of its nine argument arrays, entry by entry, on the extended reals.

  With X the [4096, 2048] input rows, S the [4096, 2048] state rows, five [2048, 2048] weight matrices and two bias
  rows of 2048 numbers, the cell's entry (r, c) is

      σ(⟨S_r, Uθ_c⟩ + ⟨X_r, Wθ_c⟩ + bθ_c) · tanh S_{r,c}  +  σ(⟨S_r, Uη_c⟩ + ⟨X_r, Wη_c⟩ + bη_c) · tanh ⟨X_r, Wx_c⟩ ,

  where ⟨v, M_c⟩ = Σ_k v_k · M_{k,c} is the product of a row with column c of a matrix and σ(x) = 1 / (1 + e^{-x}) is
  the logistic function. Every operation is the exact one on the extended reals, so the value is defined at every
  input, finite or not, and no law of arithmetic beyond the definitions is needed to compare two programs that
  both compute it in this order.
-/
import Idealize.ShloMosaic.PureOps.Ideal
import Idealize.ShloMosaic.Lib.ValueIdx

noncomputable section

open scoped BigOperators

namespace Cert.Cell

open Idealize.ShloMosaic Idealize.ShloMosaic.ValueIdx

/-- The product of row r of a [4096, 2048] array with column c of a [2048, 2048] matrix. -/
def rowDot (A : FVec Ideal ⟨2, ![4096, 2048]⟩ .f32) (M : FVec Ideal ⟨2, ![2048, 2048]⟩ .f32) (r : Fin 4096) (c : Fin 2048) :
    EReal :=
  ∑ k : Fin 2048, A (ix2 r k) * M (ix2 k c)

/-- A gate's argument at (r, c): the state row against U, plus the input row against W, plus the bias entry c. -/
def gateArg (X S : FVec Ideal ⟨2, ![4096, 2048]⟩ .f32) (U W : FVec Ideal ⟨2, ![2048, 2048]⟩ .f32)
    (b : FVec Ideal ⟨1, ![2048]⟩ .f32) (r : Fin 4096) (c : Fin 2048) : EReal :=
  rowDot S U r c + rowDot X W r c + b (ix1 c)

/-- The cell at (r, c): the forget gate times tanh of the state entry, plus the input gate times tanh of the
    projected input. -/
def cellAt (X S : FVec Ideal ⟨2, ![4096, 2048]⟩ .f32) (Uθ Wθ : FVec Ideal ⟨2, ![2048, 2048]⟩ .f32)
    (bθ : FVec Ideal ⟨1, ![2048]⟩ .f32) (Uη Wη : FVec Ideal ⟨2, ![2048, 2048]⟩ .f32) (bη : FVec Ideal ⟨1, ![2048]⟩ .f32)
    (Wx : FVec Ideal ⟨2, ![2048, 2048]⟩ .f32) (r : Fin 4096) (c : Fin 2048) : EReal :=
  Ideal.logistic (gateArg X S Uθ Wθ bθ r c) * Ideal.tanh (S (ix2 r c))
    + Ideal.logistic (gateArg X S Uη Wη bη r c) * Ideal.tanh (rowDot X Wx r c)

/-- The whole [4096, 2048] result. -/
def cell (X S : FVec Ideal ⟨2, ![4096, 2048]⟩ .f32) (Uθ Wθ : FVec Ideal ⟨2, ![2048, 2048]⟩ .f32)
    (bθ : FVec Ideal ⟨1, ![2048]⟩ .f32) (Uη Wη : FVec Ideal ⟨2, ![2048, 2048]⟩ .f32) (bη : FVec Ideal ⟨1, ![2048]⟩ .f32)
    (Wx : FVec Ideal ⟨2, ![2048, 2048]⟩ .f32) : FVec Ideal ⟨2, ![4096, 2048]⟩ .f32 :=
  fun i => cellAt X S Uθ Wθ bθ Uη Wη bη Wx (i 0) (i 1)

theorem cell_apply (X S : FVec Ideal ⟨2, ![4096, 2048]⟩ .f32) (Uθ Wθ : FVec Ideal ⟨2, ![2048, 2048]⟩ .f32)
    (bθ : FVec Ideal ⟨1, ![2048]⟩ .f32) (Uη Wη : FVec Ideal ⟨2, ![2048, 2048]⟩ .f32) (bη : FVec Ideal ⟨1, ![2048]⟩ .f32)
    (Wx : FVec Ideal ⟨2, ![2048, 2048]⟩ .f32) (r : Fin 4096) (c : Fin 2048) :
    cell X S Uθ Wθ bθ Uη Wη bη Wx (ix2 r c) = cellAt X S Uθ Wθ bθ Uη Wη bη Wx r c := rfl

end Cert.Cell

end
-- ==== Proof.Whole.lean ====
/-
  From the output blocks to the whole result array.

  The grid has 8 × 8 points; point (ib, ih) holds rows 512·ib … 512·ib + 511 of the inputs and of the state, columns
  256·ih … 256·ih + 255 of each weight matrix and of each bias row, and writes back the [512, 256] block (ib, ih) of
  the result. The state entry under the tanh is read from the staged state rows at column 256·ih + q, which is the
  result's own column. So the entry (p, q) of the block a point writes back is the cell's entry at
  (512·ib + p, 256·ih + q): each block is the cell of the argument arrays read through the block's rectangle. The 64
  blocks tile the [4096, 2048] array, so after the run the array is the cell of the arguments.
-/
import proofs.«114940_j61692910239821_1_alg».proof.Proof.Gen.KernelIdeal.Value
import proofs.«114940_j61692910239821_1_alg».proof.Proof.Block
import proofs.«114940_j61692910239821_1_alg».proof.Proof.Cell
import proofs.«114940_j61692910239821_1_alg».proof.Proof.LibBiasRow
import Idealize.ShloMosaic.Lib.StableHlo.Run

set_option maxRecDepth 16384

noncomputable section

open scoped BigOperators

namespace Cert.KernelIdeal.Whole

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-! ## Where a point's blocks sit -/

/-- The printed index maps, decided over the 64 grid points: the row blocks of inputs and state move with the result's
    row block, the column blocks of the weights and biases with the result's column block, and the column offset of
    the state read is 256 times the result's column block. -/
theorem idx_facts : ∀ t : Fin cfg0.N,
    (win0_0.index t (0 : Fin 2) = win0_9.index t (0 : Fin 2) ∧ win0_0.index t (1 : Fin 2) = 0)
    ∧ (win0_1.index t (0 : Fin 2) = win0_9.index t (0 : Fin 2) ∧ win0_1.index t (1 : Fin 2) = 0)
    ∧ (win0_2.index t (0 : Fin 2) = 0 ∧ win0_2.index t (1 : Fin 2) = win0_9.index t (1 : Fin 2))
    ∧ (win0_3.index t (0 : Fin 2) = 0 ∧ win0_3.index t (1 : Fin 2) = win0_9.index t (1 : Fin 2))
    ∧ (win0_4.index t (0 : Fin 2) = 0 ∧ win0_4.index t (1 : Fin 2) = win0_9.index t (1 : Fin 2))
    ∧ (win0_5.index t (0 : Fin 2) = 0 ∧ win0_5.index t (1 : Fin 2) = win0_9.index t (1 : Fin 2))
    ∧ (win0_6.index t (0 : Fin 2) = 0 ∧ win0_6.index t (1 : Fin 2) = win0_9.index t (1 : Fin 2))
    ∧ (win0_7.index t (0 : Fin 2) = 0 ∧ win0_7.index t (1 : Fin 2) = win0_9.index t (1 : Fin 2))
    ∧ (win0_8.index t (0 : Fin 2) = 0 ∧ win0_8.index t (1 : Fin 2) = win0_9.index t (1 : Fin 2))
    ∧ (k0_off1 (grid0.coords t) (0 : Fin 2) = 0 ∧ k0_off1 (grid0.coords t) (1 : Fin 2) = 256 * win0_9.index t (1 : Fin 2))
    ∧ win0_9.index t (0 : Fin 2) ≤ 7 ∧ win0_9.index t (1 : Fin 2) ≤ 7 :=
  (by decide +kernel : ∀ t : Fin grid0.N, _)

/-- Every block index of the 8 × 8 box is some point's. -/
theorem idx_onto : ∀ (a b : Fin 8), ∃ t : Fin cfg0.N, win0_9.index t = ![a.val, b.val] :=
  (by decide +kernel : ∀ (a b : Fin 8), ∃ t : Fin grid0.N, win0_9.index t = ![a.val, b.val])

/-- The array index of entry `y` of the block point `t` writes back. -/
abbrev place (t : Fin cfg0.N) (y : S512x256.Idx) : S4096x2048.Idx := ((cfg0.win 9).blk t).view.emb y

/-- The array row of the block's row p, and the array column of the block's column q. -/
def rowOf (t : Fin cfg0.N) (p : Fin 512) : Fin 4096 := place t (ix2 p (0 : Fin 256)) 0
def colOf (t : Fin cfg0.N) (q : Fin 256) : Fin 2048 := place t (ix2 (0 : Fin 512) q) 1

theorem rowOf_val (t : Fin cfg0.N) (p : Fin 512) : (rowOf t p).val = win0_9.index t (0 : Fin 2) * 512 + 1 * p.val := rfl
theorem colOf_val (t : Fin cfg0.N) (q : Fin 256) : (colOf t q).val = win0_9.index t (1 : Fin 2) * 256 + 1 * q.val := rfl

theorem place_eq (t : Fin cfg0.N) (p : Fin 512) (q : Fin 256) : place t (ix2 p q) = ix2 (rowOf t p) (colOf t q) := by
  funext a
  apply Fin.ext
  match a with
  | ⟨0, _⟩ => rfl
  | ⟨1, _⟩ => rfl

/-! ## The staged blocks as entries of the arguments -/

abbrev xBlk (c : Dev nD) (t : Fin cfg0.N) : FVec Ideal S512x2048 .f32 := iblk m c 0 t
abbrev sBlk (c : Dev nD) (t : Fin cfg0.N) : FVec Ideal S512x2048 .f32 := iblk m c 1 t
abbrev uθBlk (c : Dev nD) (t : Fin cfg0.N) : FVec Ideal S2048x256 .f32 := iblk m c 2 t
abbrev wθBlk (c : Dev nD) (t : Fin cfg0.N) : FVec Ideal S2048x256 .f32 := iblk m c 3 t
abbrev bθBlk (c : Dev nD) (t : Fin cfg0.N) : FVec Ideal S1x256 .f32 := iblk m c 4 t
abbrev uηBlk (c : Dev nD) (t : Fin cfg0.N) : FVec Ideal S2048x256 .f32 := iblk m c 5 t
abbrev wηBlk (c : Dev nD) (t : Fin cfg0.N) : FVec Ideal S2048x256 .f32 := iblk m c 6 t
abbrev bηBlk (c : Dev nD) (t : Fin cfg0.N) : FVec Ideal S1x256 .f32 := iblk m c 7 t
abbrev wxBlk (c : Dev nD) (t : Fin cfg0.N) : FVec Ideal S2048x256 .f32 := iblk m c 8 t

/-- The input block's entry (p, k) is the inputs' entry in the point's row p, column k. -/
theorem xBlk_apply (c : Dev nD) (t : Fin cfg0.N) (p : Fin 512) (k : Fin 2048) :
    xBlk m c t (ix2 p k) = (m ((c : Thread nD τ).loc main_arg0)) (ix2 (rowOf t p) k) := by
  show V m c main_arg0 (((cfg0.win 0).blk t).view.emb (ix2 p k)) = _
  rw [V_main_arg0]
  refine congrArg _ (funext fun a => Fin.ext ?_)
  obtain ⟨⟨e0, e1⟩, -⟩ := idx_facts t
  match a with
  | ⟨0, _⟩ => show win0_0.index t (0 : Fin 2) * 512 + 1 * p.val = win0_9.index t (0 : Fin 2) * 512 + 1 * p.val; omega
  | ⟨1, _⟩ => show win0_0.index t (1 : Fin 2) * 2048 + 1 * k.val = k.val; omega

/-- The state block's entry (p, k) is the state's entry in the point's row p, column k. -/
theorem sBlk_apply (c : Dev nD) (t : Fin cfg0.N) (p : Fin 512) (k : Fin 2048) :
    sBlk m c t (ix2 p k) = (m ((c : Thread nD τ).loc main_arg1)) (ix2 (rowOf t p) k) := by
  show V m c main_arg1 (((cfg0.win 1).blk t).view.emb (ix2 p k)) = _
  rw [V_main_arg1]
  refine congrArg _ (funext fun a => Fin.ext ?_)
  obtain ⟨-, ⟨e0, e1⟩, -⟩ := idx_facts t
  match a with
  | ⟨0, _⟩ => show win0_1.index t (0 : Fin 2) * 512 + 1 * p.val = win0_9.index t (0 : Fin 2) * 512 + 1 * p.val; omega
  | ⟨1, _⟩ => show win0_1.index t (1 : Fin 2) * 2048 + 1 * k.val = k.val; omega

/-- The state columns under the tanh: entry (p, q) of that read is the state's entry at the result's own place. -/
theorem stateCols_apply (c : Dev nD) (t : Fin cfg0.N) (p : Fin 512) (q : Fin 256) :
    View.ld (sBlk m c t) (Block.stateCols (grid0.coords t)) (ix2 p q)
      = (m ((c : Thread nD τ).loc main_arg1)) (ix2 (rowOf t p) (colOf t q)) := by
  show V m c main_arg1 (((cfg0.win 1).blk t).view.emb ((Block.stateCols (grid0.coords t)).idx (ix2 p q))) = _
  rw [V_main_arg1]
  refine congrArg _ (funext fun a => Fin.ext ?_)
  obtain ⟨-, ⟨e0, e1⟩, -, -, -, -, -, -, -, ⟨o0, o1⟩, -⟩ := idx_facts t
  match a with
  | ⟨0, _⟩ =>
    show win0_1.index t (0 : Fin 2) * 512 + 1 * (k0_off1 (grid0.coords t) (0 : Fin 2) + 1 * p.val)
      = win0_9.index t (0 : Fin 2) * 512 + 1 * p.val
    omega
  | ⟨1, _⟩ =>
    show win0_1.index t (1 : Fin 2) * 2048 + 1 * (k0_off1 (grid0.coords t) (1 : Fin 2) + 1 * q.val)
      = win0_9.index t (1 : Fin 2) * 256 + 1 * q.val
    omega

/-- A weight block's entry (k, q) is the matrix's entry in row k and the point's column q: the forget gate's state weights, -/
theorem uθBlk_apply (c : Dev nD) (t : Fin cfg0.N) (k : Fin 2048) (q : Fin 256) :
    uθBlk m c t (ix2 k q) = (m ((c : Thread nD τ).loc main_arg2)) (ix2 k (colOf t q)) := by
  show V m c main_arg2 (((cfg0.win 2).blk t).view.emb (ix2 k q)) = _
  rw [V_main_arg2]
  refine congrArg _ (funext fun a => Fin.ext ?_)
  obtain ⟨e0, e1⟩ := (idx_facts t).2.2.1
  match a with
  | ⟨0, _⟩ => show win0_2.index t (0 : Fin 2) * 2048 + 1 * k.val = k.val; omega
  | ⟨1, _⟩ => show win0_2.index t (1 : Fin 2) * 256 + 1 * q.val = win0_9.index t (1 : Fin 2) * 256 + 1 * q.val; omega

/-- the forget gate's input weights, -/
theorem wθBlk_apply (c : Dev nD) (t : Fin cfg0.N) (k : Fin 2048) (q : Fin 256) :
    wθBlk m c t (ix2 k q) = (m ((c : Thread nD τ).loc main_arg3)) (ix2 k (colOf t q)) := by
  show V m c main_arg3 (((cfg0.win 3).blk t).view.emb (ix2 k q)) = _
  rw [V_main_arg3]
  refine congrArg _ (funext fun a => Fin.ext ?_)
  obtain ⟨e0, e1⟩ := (idx_facts t).2.2.2.1
  match a with
  | ⟨0, _⟩ => show win0_3.index t (0 : Fin 2) * 2048 + 1 * k.val = k.val; omega
  | ⟨1, _⟩ => show win0_3.index t (1 : Fin 2) * 256 + 1 * q.val = win0_9.index t (1 : Fin 2) * 256 + 1 * q.val; omega

/-- the input gate's state weights, -/
theorem uηBlk_apply (c : Dev nD) (t : Fin cfg0.N) (k : Fin 2048) (q : Fin 256) :
    uηBlk m c t (ix2 k q) = (m ((c : Thread nD τ).loc main_arg5)) (ix2 k (colOf t q)) := by
  show V m c main_arg5 (((cfg0.win 5).blk t).view.emb (ix2 k q)) = _
  rw [V_main_arg5]
  refine congrArg _ (funext fun a => Fin.ext ?_)
  obtain ⟨e0, e1⟩ := (idx_facts t).2.2.2.2.2.1
  match a with
  | ⟨0, _⟩ => show win0_5.index t (0 : Fin 2) * 2048 + 1 * k.val = k.val; omega
  | ⟨1, _⟩ => show win0_5.index t (1 : Fin 2) * 256 + 1 * q.val = win0_9.index t (1 : Fin 2) * 256 + 1 * q.val; omega

/-- the input gate's input weights, -/
theorem wηBlk_apply (c : Dev nD) (t : Fin cfg0.N) (k : Fin 2048) (q : Fin 256) :
    wηBlk m c t (ix2 k q) = (m ((c : Thread nD τ).loc main_arg6)) (ix2 k (colOf t q)) := by
  show V m c main_arg6 (((cfg0.win 6).blk t).view.emb (ix2 k q)) = _
  rw [V_main_arg6]
  refine congrArg _ (funext fun a => Fin.ext ?_)
  obtain ⟨e0, e1⟩ := (idx_facts t).2.2.2.2.2.2.1
  match a with
  | ⟨0, _⟩ => show win0_6.index t (0 : Fin 2) * 2048 + 1 * k.val = k.val; omega
  | ⟨1, _⟩ => show win0_6.index t (1 : Fin 2) * 256 + 1 * q.val = win0_9.index t (1 : Fin 2) * 256 + 1 * q.val; omega

/-- and the projection. -/
theorem wxBlk_apply (c : Dev nD) (t : Fin cfg0.N) (k : Fin 2048) (q : Fin 256) :
    wxBlk m c t (ix2 k q) = (m ((c : Thread nD τ).loc main_arg8)) (ix2 k (colOf t q)) := by
  show V m c main_arg8 (((cfg0.win 8).blk t).view.emb (ix2 k q)) = _
  rw [V_main_arg8]
  refine congrArg _ (funext fun a => Fin.ext ?_)
  obtain ⟨e0, e1⟩ := (idx_facts t).2.2.2.2.2.2.2.2.1
  match a with
  | ⟨0, _⟩ => show win0_8.index t (0 : Fin 2) * 2048 + 1 * k.val = k.val; omega
  | ⟨1, _⟩ => show win0_8.index t (1 : Fin 2) * 256 + 1 * q.val = win0_9.index t (1 : Fin 2) * 256 + 1 * q.val; omega

/-- Before the call the host lays the bias row out as a [1, 2048] array. -/
theorem biasθ_host (c : Dev nD) :
    (V m c main_v0 : S1x2048.Idx → EReal) = shapeCast S1x2048 (m ((c : Thread nD τ).loc main_arg4)) shapeCasts_S2048_S1x2048 := by
  dsimp only [Gen.V, Gen.hostOps0]; after_results; rfl

/-- The forget gate's bias block at (0, q) is the bias entry of the point's column q. -/
theorem bθBlk_apply (c : Dev nD) (t : Fin cfg0.N) (q : Fin 256) :
    bθBlk m c t (ix2 (0 : Fin 1) q) = (m ((c : Thread nD τ).loc main_arg4)) (ix1 (colOf t q)) := by
  show V m c main_v0 (((cfg0.win 4).blk t).view.emb (ix2 (0 : Fin 1) q)) = _
  rw [biasθ_host]
  have e : ((cfg0.win 4).blk t).view.emb (ix2 (0 : Fin 1) q) = ix2 (0 : Fin 1) (colOf t q) := by
    funext a
    apply Fin.ext
    obtain ⟨e0, e1⟩ := (idx_facts t).2.2.2.2.1
    match a with
    | ⟨0, _⟩ => show win0_4.index t (0 : Fin 2) * 1 + 1 * 0 = 0; omega
    | ⟨1, _⟩ => show win0_4.index t (1 : Fin 2) * 256 + 1 * q.val = win0_9.index t (1 : Fin 2) * 256 + 1 * q.val; omega
  rw [e]
  exact Cert.BiasRow.cast_row_apply _ _ _

/-- Before the call the host lays the bias row out as a [1, 2048] array. -/
theorem biasη_host (c : Dev nD) :
    (V m c main_v1 : S1x2048.Idx → EReal) = shapeCast S1x2048 (m ((c : Thread nD τ).loc main_arg7)) shapeCasts_S2048_S1x2048 := by
  dsimp only [Gen.V, Gen.hostOps0]; after_results; rfl

/-- The input gate's bias block at (0, q) is the bias entry of the point's column q. -/
theorem bηBlk_apply (c : Dev nD) (t : Fin cfg0.N) (q : Fin 256) :
    bηBlk m c t (ix2 (0 : Fin 1) q) = (m ((c : Thread nD τ).loc main_arg7)) (ix1 (colOf t q)) := by
  show V m c main_v1 (((cfg0.win 7).blk t).view.emb (ix2 (0 : Fin 1) q)) = _
  rw [biasη_host]
  have e : ((cfg0.win 7).blk t).view.emb (ix2 (0 : Fin 1) q) = ix2 (0 : Fin 1) (colOf t q) := by
    funext a
    apply Fin.ext
    obtain ⟨e0, e1⟩ := (idx_facts t).2.2.2.2.2.2.2.1
    match a with
    | ⟨0, _⟩ => show win0_7.index t (0 : Fin 2) * 1 + 1 * 0 = 0; omega
    | ⟨1, _⟩ => show win0_7.index t (1 : Fin 2) * 256 + 1 * q.val = win0_9.index t (1 : Fin 2) * 256 + 1 * q.val; omega
  rw [e]
  exact Cert.BiasRow.cast_row_apply _ _ _

/-! ## Each block written back is the cell read through the block -/

/-- The cell of the argument arrays as core `c` was launched with them. -/
abbrev result (c : Dev nD) : Buf (Elt Ideal) ((c : Thread nD τ).loc main_v2) :=
  Cert.Cell.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point `t` writes back is block `t` of the cell. -/
theorem flushed_eq (c : Dev nD) (t : Fin cfg0.N) :
    (dats m 0 c).flushed 9 t = ((cfg0.win 9).blk t).view.read (Elt Ideal) (result m c) := by
  rw [flushed9_A, Block.staged_eq]
  funext y
  obtain ⟨p, q, rfl⟩ : ∃ (p : Fin 512) (q : Fin 256), y = ix2 p q := ⟨y 0, y 1, eq_ix2 y⟩
  show k0_pay1 (F := Ideal) (k0_pay4 (xBlk m c t) (wxBlk m c t))
      (k0_pay5 (xBlk m c t) (sBlk m c t) (uθBlk m c t) (wθBlk m c t) (bθBlk m c t))
      (k0_pay6 (xBlk m c t) (sBlk m c t) (uηBlk m c t) (wηBlk m c t) (bηBlk m c t))
      (View.ld (sBlk m c t) (Block.stateCols (grid0.coords t))) (ix2 p q)
    = Cert.Cell.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (place t (ix2 p q))
  -- the stored value at (p, q); the cell at the entry's place; the state entry under the tanh
  rw [Block.stored_apply, place_eq, Cert.Cell.cell_apply, stateCols_apply]
  unfold Block.gateArg Cert.Cell.cellAt Cert.Cell.gateArg Cert.Cell.rowDot
  -- every block entry is the argument's entry at the point's rows and columns
  simp only [xBlk_apply, sBlk_apply, uθBlk_apply, wθBlk_apply, bθBlk_apply, uηBlk_apply, wηBlk_apply, bηBlk_apply,
    wxBlk_apply]

/-! ## The blocks tile the array -/

/-- An index of the array is in point `t`'s block iff each coordinate is in the block's range on its axis. -/
theorem mem_blk (t : Fin cfg0.N) (i : S4096x2048.Idx) :
    i ∈ ((cfg0.win 9).blk t).view.set ↔ ∀ a : Fin 2, win0_9.index t a * S512x256.size a ≤ (i a).val
      ∧ (i a).val < win0_9.index t a * S512x256.size a + S512x256.size a := by
  show i ∈ ((View.whole main_v2).slice (win0_9.rect t)).set ↔ _
  rw [View.set_slice_whole, Rect.mem_set_unit]
  exact Iff.rfl

/-- Every index of the array is in the block of the point whose row block is row / 512 and whose column block is
    column / 256. -/
theorem covered (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_9.index t (0 : Fin 2) = (i 0).val / 512 := congrFun ht 0
  have q1 : win0_9.index t (1 : Fin 2) = (i 1).val / 256 := congrFun ht 1
  refine ⟨t, flush0_9 t, ?_⟩
  rw [mem_blk]
  intro a
  match a with
  | ⟨0, _⟩ =>
    show win0_9.index t (0 : Fin 2) * 512 ≤ (i 0).val ∧ (i 0).val < win0_9.index t (0 : Fin 2) * 512 + 512
    omega
  | ⟨1, _⟩ =>
    show win0_9.index t (1 : Fin 2) * 256 ≤ (i 1).val ∧ (i 1).val < win0_9.index t (1 : Fin 2) * 256 + 256
    omega

/-- After the run the result array is the cell of the arguments. -/
theorem final (c : Dev nD) : (dats m 0 c).arrAt 9 cfg0.N = result m c :=
  (dats m 0 c).arrAt_eq_of_cover 9 (result m c) (fun t _ => flushed_eq m c t) covered

/-- The kernel's run: it terminates with the result array at the cell of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Whole

end
-- ==== Proof.RefCell.lean ====
/-
  The reference program's result is the gated cell.

  The host spells the logistic function as the quotient 1 / (1 + exp(-x)) of arrays, each product as a general
  product contracting the left operand's columns with the right operand's rows, and each bias as a row laid out
  over the 4096 rows. Read at an entry (r, c): a general product is the sum over k of lhs(r, k) · rhs(k, c); the laid
  out bias is its entry c; the scalar one laid out over the array is the number 1; and the quotient
  1 / (1 + e^{-x}) is, by definition, the logistic function of x on the extended reals. So every entry of the
  reference's result is the cell's entry, with no arithmetic law used.
-/
import proofs.«114940_j61692910239821_1_alg».proof.Proof.Gen.ReferenceIdeal.Run
import proofs.«114940_j61692910239821_1_alg».proof.Proof.Cell
import proofs.«114940_j61692910239821_1_alg».proof.Proof.LibDense
import proofs.«114940_j61692910239821_1_alg».proof.Proof.LibBiasRow
import Idealize.ShloMosaic.Lib.IdealHost

noncomputable section

open scoped BigOperators

namespace Cert.ReferenceIdeal.RefCell

open Cert.ReferenceIdeal Cert.ReferenceIdeal.Gen Idealize.ShloMosaic Idealize.ShloMosaic.ValueIdx

/-- One gate as the host spells it, at (r, c): the logistic function of the state row against U, plus the input row
    against W, plus the bias entry c. -/
theorem host_gate (X S : FVec Ideal S4096x2048 .f32) (U W : FVec Ideal S2048x2048 .f32) (b : FVec Ideal S2048 .f32)
    (r : Fin 4096) (c : Fin 2048) :
    Host.divf (F := Ideal) (broadcastInDim S4096x2048 ![] bcast_S_S4096x2048 (constant S_ .f32 0x3F800000#32)) (addf (broadcastInDim S4096x2048 ![] bcast_S_S4096x2048 (constant S_ .f32 0x3F800000#32)) (Host.exp (Host.negf (addf (addf (Host.dotGeneral dot_S4096x2048_S2048x2048_S4096x2048_1_0_0_1_n_n none S U) (Host.dotGeneral dot_S4096x2048_S2048x2048_S4096x2048_1_0_0_1_n_n none X W)) (broadcastInDim S4096x2048 ![0, 1] bcast_S1x2048_S4096x2048_0_1 (broadcastInDim S1x2048 ![1] bcast_S2048_S1x2048_1 b)))))) (ix2 r c)
      = Ideal.logistic (Cert.Cell.gateArg X S U W b r c) := by
  -- the quotient and the sum at the entry; the scalar one laid out over the array is the number 1
  rw [hostDivf_apply, addf_apply, broadcastInDim_scalar_apply, constant_apply, Ideal.ofBits_one_f32]
  -- the host's exponential and negation act entry by entry
  show Ideal.div 1 (1 + Ideal.exp (-(addf (addf (Host.dotGeneral dot_S4096x2048_S2048x2048_S4096x2048_1_0_0_1_n_n none S U) (Host.dotGeneral dot_S4096x2048_S2048x2048_S4096x2048_1_0_0_1_n_n none X W)) (broadcastInDim S4096x2048 ![0, 1] bcast_S1x2048_S4096x2048_0_1 (broadcastInDim S1x2048 ![1] bcast_S2048_S1x2048_1 b)) (ix2 r c)))) = _
  -- the two products as sums over k, the bias row at its entry c
  rw [addf_apply, addf_apply, Cert.Dense.dotGeneral_plain_apply _ rfl rfl rfl rfl rfl rfl,
    Cert.Dense.dotGeneral_plain_apply _ rfl rfl rfl rfl rfl rfl, Cert.BiasRow.layout_layout_apply]
  rfl

/-- The reference run's result term is the cell of its arguments. -/
theorem reference_eq (x0 x1 : FVec Ideal S4096x2048 .f32) (x2 x3 : FVec Ideal S2048x2048 .f32) (x4 : FVec Ideal S2048 .f32)
    (x5 x6 : FVec Ideal S2048x2048 .f32) (x7 : FVec Ideal S2048 .f32) (x8 : FVec Ideal S2048x2048 .f32) :
    addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (Host.dotGeneral dot_S4096x2048_S2048x2048_S4096x2048_1_0_0_1_n_n none (x1) (x2)) (Host.dotGeneral dot_S4096x2048_S2048x2048_S4096x2048_1_0_0_1_n_n none (x0) (x3))) (broadcastInDim S4096x2048 ![0, 1] bcast_S1x2048_S4096x2048_0_1 (broadcastInDim S1x2048 ![1] bcast_S2048_S1x2048_1 (x4)))))))) (Host.tanh (x1))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (addf (Host.dotGeneral dot_S4096x2048_S2048x2048_S4096x2048_1_0_0_1_n_n none (x1) (x5)) (Host.dotGeneral dot_S4096x2048_S2048x2048_S4096x2048_1_0_0_1_n_n none (x0) (x6))) (broadcastInDim S4096x2048 ![0, 1] bcast_S1x2048_S4096x2048_0_1 (broadcastInDim S1x2048 ![1] bcast_S2048_S1x2048_1 (x7)))))))) (Host.tanh (Host.dotGeneral dot_S4096x2048_S2048x2048_S4096x2048_1_0_0_1_n_n none (x0) (x8))))
      = Cert.Cell.cell x0 x1 x2 x3 x4 x5 x6 x7 x8 := by
  funext i
  obtain ⟨r, c, rfl⟩ : ∃ (r : Fin 4096) (c : Fin 2048), i = ix2 r c := ⟨i 0, i 1, eq_ix2 i⟩
  -- the outer sum and the two products entry by entry, each gate by host_gate
  rw [Cert.Cell.cell_apply, addf_apply, mulf_apply, mulf_apply, host_gate, host_gate]
  -- the host's tanh acts entry by entry; the projected input is a sum over k
  show _ * Ideal.tanh (x1 (ix2 r c)) + _ * Ideal.tanh (Host.dotGeneral dot_S4096x2048_S2048x2048_S4096x2048_1_0_0_1_n_n none x0 x8 (ix2 r c)) = _
  rw [Cert.Dense.dotGeneral_plain_apply _ rfl rfl rfl rfl rfl rfl]
  rfl

end Cert.ReferenceIdeal.RefCell

end
-- ==== Proof.lean ====
/-
  A gated recurrent cell computed block by block against its plain formulation: equal over the extended reals.

  Both programs take input rows X and state rows S (each [4096, 2048]), five [2048, 2048] weight matrices and two bias
  rows, and return

      h = σ(S·Uθ + X·Wθ + bθ) ⊙ tanh S  +  σ(S·Uη + X·Wη + bη) ⊙ tanh (X·Wx)        (twice: the same array is both results)

  with σ(x) = 1 / (1 + e^{-x}). The kernel runs on an 8 × 8 grid: a point holds 512 rows of X and S and 256 columns of
  every weight matrix and bias, narrows the matrix operands to bf16 (the identity on the extended reals), forms the
  five products into zero accumulators (plain sums over the contracted index), applies the logistic function as one
  operation, reads the state entries under the first tanh from the staged state rows at the point's column offset,
  and stores one [512, 256] block of h. The reference forms whole products, spells the logistic function as the
  quotient 1 / (1 + exp(-x)) — which is its definition on the extended reals — and lays each bias row out over all
  rows. Entry by entry both are the same expression in the same order (Cell.lean's `cell`), so no arithmetic law and
  no finiteness of the inputs is used: the precondition is never opened.

  The kernel's frames and its run block by block, and the reference's run, are the generated modules'; written here:
  the stored block at an entry (Block.lean), the blocks as the cell read through their rectangles and their tiling of
  the array (Whole.lean), the reference's term as the cell (RefCell.lean), and the claims below. The idealization
  rewrote no operation, so `preserves` has nothing to state.
-/
import proofs.«114940_j61692910239821_1_alg».proof.Defs
import proofs.«114940_j61692910239821_1_alg».proof.Proof.Gen.Kernel
import proofs.«114940_j61692910239821_1_alg».proof.Proof.Gen.Kernel.Frame
import proofs.«114940_j61692910239821_1_alg».proof.Proof.Gen.KernelIdeal
import proofs.«114940_j61692910239821_1_alg».proof.Proof.Gen.KernelIdeal.Frame
import proofs.«114940_j61692910239821_1_alg».proof.Proof.Gen.KernelIdeal.Value
import proofs.«114940_j61692910239821_1_alg».proof.Proof.Gen.ReferenceIdeal
import proofs.«114940_j61692910239821_1_alg».proof.Proof.Gen.ReferenceIdeal.Run
import proofs.«114940_j61692910239821_1_alg».proof.Proof.Gen.Pre_finite_inputs
import proofs.«114940_j61692910239821_1_alg».proof.Proof.Whole
import proofs.«114940_j61692910239821_1_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the two result conjuncts dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end with the result array — returned twice — at the cell of the arguments: the kernel's by its blocks
    tiling the array, the reference's by reading its term entry by entry, the arguments agreeing. -/
theorem algebraic : Cert.algebraic_KernelIdeal_ReferenceIdeal := by
  intro m ρ m' ρ' _ hagree
  refine ⟨fun c => Cert.KernelIdeal.Whole.result m c, fun c => Cert.KernelIdeal.Whole.result m c, ?_, ?_⟩
  · exact (θ_run Cert.KernelIdeal.defs _ _).mono (fun _ h c => ⟨(h c).1, (h c).1, (h c).2⟩)
      (Cert.KernelIdeal.Whole.run m ρ)
  · refine (θ_run Cert.ReferenceIdeal.defs _ _).mono (fun _ h c => ?_)
      (Cert.ReferenceIdeal.Value.run (F := Ideal) m' ρ')
    obtain ⟨a0, a1, a2, a3, a4, a5, a6, a7, a8⟩ := hagree c
    refine ⟨(h c).1.trans ?_, (h c).2.1.trans ?_, (h c).2.2⟩ <;>
      rw [Cert.ReferenceIdeal.RefCell.reference_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
